-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8388608 : Shape := ⟨1, ![8388608]⟩
abbrev S262144 : Shape := ⟨1, ![262144]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S8388608 : S_.BroadcastsInDim S8388608 (![] : Fin 0 → Fin S8388608.rank)
  reducesTo_S8388608_S_d0 : S8388608.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S8388608x2 .f32) (main_arg1 : FVec F S8388608 .f32) (main_arg2 : FVec F S262144 .f32) (main_arg3 : FVec F S262144 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S8388608x2 : Shape := ⟨2, ![8388608, 2]⟩
abbrev S8388608 : Shape := ⟨1, ![8388608]⟩
abbrev S262144 : Shape := ⟨1, ![262144]⟩
abbrev S65536x2 : Shape := ⟨2, ![65536, 2]⟩
abbrev S65536 : Shape := ⟨1, ![65536]⟩
abbrev S65536x1 : Shape := ⟨2, ![65536, 1]⟩
abbrev S_ : Shape := ⟨0, ![]⟩
abbrev S8388608x1 : Shape := ⟨2, ![8388608, 1]⟩
abbrev S131072 : Shape := ⟨1, ![131072]⟩

abbrev nBuf : Space → Nat
  | .hbm => 24
  | .vmem => 12
  | .smem => 0
  | _ => 0

abbrev bufTy : (tb : Table) → Fin (tcTables nBuf tb) → BufTy
  | .hbm, ⟨0, _⟩ => ⟨S8388608x2, .f32⟩
  | .hbm, ⟨1, _⟩ => ⟨S8388608, .f32⟩
  | .hbm, ⟨2, _⟩ => ⟨S262144, .f32⟩
  | .hbm, ⟨3, _⟩ => ⟨S262144, .f32⟩
  | .hbm, ⟨4, _⟩ => ⟨S8388608, .i32⟩
  | .hbm, ⟨5, _⟩ => ⟨S_, .i32⟩
  | .hbm, ⟨6, _⟩ => ⟨S8388608, .i32⟩
  | .hbm, ⟨7, _⟩ => ⟨S8388608, .i1⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S8388608, .i32⟩
  | .hbm, ⟨12, _⟩ => ⟨S8388608x1, .i32⟩
  | .hbm, ⟨13, _⟩ => ⟨S8388608, .f32⟩
  | .hbm, ⟨14, _⟩ => ⟨S_, .i32⟩
  | .hbm, ⟨15, _⟩ => ⟨S8388608, .i32⟩
  | .hbm, ⟨16, _⟩ => ⟨S8388608, .i1⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S8388608, .i32⟩
  | .hbm, ⟨21, _⟩ => ⟨S8388608x1, .i32⟩
  | .hbm, ⟨22, _⟩ => ⟨S8388608, .f32⟩
  | .hbm, ⟨23, _⟩ => ⟨S8388608, .f32⟩
  | .local _ .vmem, ⟨0, _⟩ => ⟨S65536x2, .f32⟩
  | .local _ .vmem, ⟨1, _⟩ => ⟨S65536x2, .f32⟩
  | .local _ .vmem, ⟨2, _⟩ => ⟨S65536, .i32⟩
  | .local _ .vmem, ⟨3, _⟩ => ⟨S65536, .i32⟩
  | .local _ .vmem, ⟨4, _⟩ => ⟨S131072, .f32⟩
  | .local _ .vmem, ⟨5, _⟩ => ⟨S131072, .f32⟩
  | .local _ .vmem, ⟨6, _⟩ => ⟨S131072, .f32⟩
  | .local _ .vmem, ⟨7, _⟩ => ⟨S131072, .f32⟩
  | .local _ .vmem, ⟨8, _⟩ => ⟨S131072, .f32⟩
  | .local _ .vmem, ⟨9, _⟩ => ⟨S131072, .f32⟩
  | .local _ .vmem, ⟨10, _⟩ => ⟨S131072, .f32⟩
  | .local _ .vmem, ⟨11, _⟩ => ⟨S131072, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S65536x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S131072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S65536x2_S65536x2_0_0 : ∀ a, (![0, 0] : Fin 2 → Nat) a + S65536x2.size a ≤ S65536x2.size a
  h_S65536x2 : 0 < S65536x2.numel
  slices_S65536x2_o0_0_S65536x1 : S65536x2.Slices ![0, 0] S65536x1
  shapeCasts_S65536x1_S65536 : S65536x1.ShapeCasts S65536
  slices_S65536x2_o0_1_S65536x1 : S65536x2.Slices ![0, 1] S65536x1
  inb_S65536_S65536_0 : ∀ a, (![0] : Fin 1 → Nat) a + S65536.size a ≤ S65536.size a
  h_S65536 : 0 < S65536.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  inb_S131072_S131072_0 : ∀ a, (![0] : Fin 1 → Nat) a + S131072.size a ≤ S131072.size a
  h_S131072 : 0 < S131072.numel
  shapeCasts_S131072_S131072 : S131072.ShapeCasts S131072
  gather_S262144_S8388608x1_S8388608_n_0_n_n_0_1_1_wf : GatherDims.WF S262144 S8388608x1 S8388608 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x2.size a ≤ S8388608x2.size a
  hwx0_0 : ∀ i : grid0.Coords, EltTy.bits .f32 = 32 ∨ (Rect.block (s := S8388608x2) S65536x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536.size a ≤ S8388608.size a
  hwx0_1 : ∀ i : grid0.Coords, EltTy.bits .i32 = 32 ∨ (Rect.block (s := S8388608) S65536.size (cc0_transform_1 i) (hinb0_1 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S131072.size a ≤ S8388608.size a
  hwx1_0 : ∀ i : grid1.Coords, EltTy.bits .f32 = 32 ∨ (Rect.block (s := S8388608) S131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S131072.size a ≤ S8388608.size a
  hwx1_1 : ∀ i : grid1.Coords, EltTy.bits .f32 = 32 ∨ (Rect.block (s := S8388608) S131072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S131072.size a ≤ S8388608.size a
  hwx1_2 : ∀ i : grid1.Coords, EltTy.bits .f32 = 32 ∨ (Rect.block (s := S8388608) S131072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S131072.size a ≤ S8388608.size a
  hwx1_3 : ∀ i : grid1.Coords, EltTy.bits .f32 = 32 ∨ (Rect.block (s := S8388608) S131072.size (cc1_transform_3 i) (hinb1_3 i)).WholeWords (EltTy.packing .f32)

variable [Facts₀]

def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf

abbrev win0_0 : Pipeline.Window sig grid0 :=
  Pipeline.Window.ofSpec (Memref.whole main_arg0) S65536x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v7) S131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S131072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S131072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8388608x2 : Shape := ⟨2, ![8388608, 2]⟩
abbrev S8388608 : Shape := ⟨1, ![8388608]⟩
abbrev S262144 : Shape := ⟨1, ![262144]⟩
abbrev S_ : Shape := ⟨0, ![]⟩
abbrev S8388608x1 : Shape := ⟨2, ![8388608, 1]⟩

abbrev nBuf : Space → Nat
  | .hbm => 253
  | .vmem => 0
  | .smem => 0
  | _ => 0

abbrev hbmTy0_0 (i : Nat) : BufTy := match i % 128 with
  | 0 => ⟨S8388608x2, .f32⟩
  | 1 => ⟨S8388608, .f32⟩
  | 2 => ⟨S262144, .f32⟩
  | 3 => ⟨S262144, .f32⟩
  | 4 => ⟨S_, .f32⟩
  | 5 => ⟨S8388608x2, .f32⟩
  | 6 => ⟨S8388608x2, .f32⟩
  | 7 => ⟨S8388608x2, .f32⟩
  | 8 => ⟨S_, .f32⟩
  | 9 => ⟨S8388608x2, .f32⟩
  | 10 => ⟨S8388608x2, .f32⟩
  | 11 => ⟨S8388608x1, .f32⟩
  | 12 => ⟨S8388608, .f32⟩
  | 13 => ⟨S_, .f32⟩
  | 14 => ⟨S8388608, .f32⟩
  | 15 => ⟨S8388608, .f32⟩
  | 16 => ⟨S_, .f32⟩
  | 17 => ⟨S8388608, .f32⟩
  | 18 => ⟨S8388608, .f32⟩
  | 19 => ⟨S8388608x1, .f32⟩
  | 20 => ⟨S8388608, .f32⟩
  | 21 => ⟨S_, .f32⟩
  | 22 => ⟨S8388608, .f32⟩
  | 23 => ⟨S8388608, .f32⟩
  | 24 => ⟨S_, .f32⟩
  | 25 => ⟨S8388608, .f32⟩
  | 26 => ⟨S8388608, .f32⟩
  | 27 => ⟨S_, .f32⟩
  | 28 => ⟨S8388608, .f32⟩
  | 29 => ⟨S8388608, .f32⟩
  | 30 => ⟨S8388608, .i32⟩
  | 31 => ⟨S_, .i32⟩
  | 32 => ⟨S_, .i32⟩
  | 33 => ⟨S_, .i32⟩
  | 34 => ⟨S8388608, .i32⟩
  | 35 => ⟨S8388608, .i32⟩
  | 36 => ⟨S_, .i32⟩
  | 37 => ⟨S8388608, .i32⟩
  | 38 => ⟨S8388608, .i32⟩
  | 39 => ⟨S_, .f32⟩
  | 40 => ⟨S8388608, .f32⟩
  | 41 => ⟨S8388608, .f32⟩
  | 42 => ⟨S8388608, .i32⟩
  | 43 => ⟨S_, .i32⟩
  | 44 => ⟨S_, .i32⟩
  | 45 => ⟨S_, .i32⟩
  | 46 => ⟨S8388608, .i32⟩
  | 47 => ⟨S8388608, .i32⟩
  | 48 => ⟨S_, .i32⟩
  | 49 => ⟨S8388608, .i32⟩
  | 50 => ⟨S8388608, .i32⟩
  | 51 => ⟨S_, .i32⟩
  | 52 => ⟨S8388608, .i32⟩
  | 53 => ⟨S_, .i32⟩
  | 54 => ⟨S8388608, .i32⟩
  | 55 => ⟨S8388608, .i32⟩
  | 56 => ⟨S_, .i32⟩
  | 57 => ⟨S8388608, .i32⟩
  | 58 => ⟨S8388608, .i32⟩
  | 59 => ⟨S_, .i32⟩
  | 60 => ⟨S8388608, .i32⟩
  | 61 => ⟨S8388608, .i32⟩
  | 62 => ⟨S8388608, .i32⟩
  | 63 => ⟨S_, .i32⟩
  | 64 => ⟨S8388608, .i32⟩
  | 65 => ⟨S8388608, .i32⟩
  | 66 => ⟨S_, .i32⟩
  | 67 => ⟨S8388608, .i32⟩
  | 68 => ⟨S8388608, .i32⟩
  | 69 => ⟨S_, .i32⟩
  | 70 => ⟨S8388608, .i32⟩
  | 71 => ⟨S8388608, .i32⟩
  | 72 => ⟨S8388608, .i32⟩
  | 73 => ⟨S_, .i32⟩
  | 74 => ⟨S8388608, .i32⟩
  | 75 => ⟨S8388608, .i32⟩
  | 76 => ⟨S_, .i32⟩
  | 77 => ⟨S8388608, .i32⟩
  | 78 => ⟨S8388608, .i32⟩
  | 79 => ⟨S_, .i32⟩
  | 80 => ⟨S8388608, .i32⟩
  | 81 => ⟨S8388608, .i32⟩
  | 82 => ⟨S8388608, .i32⟩
  | 83 => ⟨S_, .i32⟩
  | 84 => ⟨S8388608, .i32⟩
  | 85 => ⟨S8388608, .i32⟩
  | 86 => ⟨S_, .i32⟩
  | 87 => ⟨S8388608, .i32⟩
  | 88 => ⟨S8388608, .i32⟩
  | 89 => ⟨S_, .i32⟩
  | 90 => ⟨S8388608, .i32⟩
  | 91 => ⟨S8388608, .i32⟩
  | 92 => ⟨S8388608, .i32⟩
  | 93 => ⟨S_, .i32⟩
  | 94 => ⟨S8388608, .i32⟩
  | 95 => ⟨S8388608, .i32⟩
  | 96 => ⟨S_, .i32⟩
  | 97 => ⟨S8388608, .i32⟩
  | 98 => ⟨S8388608, .i32⟩
  | 99 => ⟨S_, .i32⟩
  | 100 => ⟨S8388608, .i32⟩
  | 101 => ⟨S8388608, .i32⟩
  | 102 => ⟨S8388608, .i32⟩
  | 103 => ⟨S_, .i32⟩
  | 104 => ⟨S8388608, .i32⟩
  | 105 => ⟨S8388608, .i32⟩
  | 106 => ⟨S_, .i32⟩
  | 107 => ⟨S8388608, .i32⟩
  | 108 => ⟨S8388608, .i32⟩
  | 109 => ⟨S_, .i32⟩
  | 110 => ⟨S8388608, .i32⟩
  | 111 => ⟨S8388608, .i32⟩
  | 112 => ⟨S8388608, .i32⟩
  | 113 => ⟨S_, .i32⟩
  | 114 => ⟨S8388608, .i32⟩
  | 115 => ⟨S8388608, .i32⟩
  | 116 => ⟨S_, .i32⟩
  | 117 => ⟨S8388608, .i32⟩
  | 118 => ⟨S8388608, .i32⟩
  | 119 => ⟨S_, .i32⟩
  | 120 => ⟨S8388608, .i32⟩
  | 121 => ⟨S8388608, .i32⟩
  | 122 => ⟨S8388608, .i32⟩
  | 123 => ⟨S_, .i32⟩
  | 124 => ⟨S8388608, .i32⟩
  | 125 => ⟨S8388608, .i32⟩
  | 126 => ⟨S_, .i32⟩
  | 127 => ⟨S8388608, .i32⟩
  | _ => ⟨S8388608x2, .f32⟩

abbrev hbmTy0_1 (i : Nat) : BufTy := match i % 128 with
  | 0 => ⟨S8388608, .i32⟩
  | 1 => ⟨S_, .i32⟩
  | 2 => ⟨S8388608, .i32⟩
  | 3 => ⟨S8388608, .i32⟩
  | 4 => ⟨S8388608, .i32⟩
  | 5 => ⟨S_, .i32⟩
  | 6 => ⟨S8388608, .i32⟩
  | 7 => ⟨S8388608, .i32⟩
  | 8 => ⟨S_, .i32⟩
  | 9 => ⟨S8388608, .i32⟩
  | 10 => ⟨S8388608, .i32⟩
  | 11 => ⟨S_, .i32⟩
  | 12 => ⟨S8388608, .i32⟩
  | 13 => ⟨S8388608, .i32⟩
  | 14 => ⟨S8388608, .i32⟩
  | 15 => ⟨S_, .i32⟩
  | 16 => ⟨S8388608, .i32⟩
  | 17 => ⟨S8388608, .i32⟩
  | 18 => ⟨S_, .i32⟩
  | 19 => ⟨S8388608, .i32⟩
  | 20 => ⟨S8388608, .i32⟩
  | 21 => ⟨S_, .i32⟩
  | 22 => ⟨S8388608, .i32⟩
  | 23 => ⟨S8388608, .i32⟩
  | 24 => ⟨S8388608, .i32⟩
  | 25 => ⟨S_, .i32⟩
  | 26 => ⟨S8388608, .i32⟩
  | 27 => ⟨S8388608, .i32⟩
  | 28 => ⟨S_, .i32⟩
  | 29 => ⟨S8388608, .i32⟩
  | 30 => ⟨S8388608, .i32⟩
  | 31 => ⟨S_, .i32⟩
  | 32 => ⟨S8388608, .i32⟩
  | 33 => ⟨S8388608, .i32⟩
  | 34 => ⟨S8388608, .i32⟩
  | 35 => ⟨S_, .i32⟩
  | 36 => ⟨S8388608, .i32⟩
  | 37 => ⟨S8388608, .i32⟩
  | 38 => ⟨S_, .i32⟩
  | 39 => ⟨S8388608, .i32⟩
  | 40 => ⟨S8388608, .i32⟩
  | 41 => ⟨S_, .i32⟩
  | 42 => ⟨S8388608, .i32⟩
  | 43 => ⟨S8388608, .i32⟩
  | 44 => ⟨S8388608, .i32⟩
  | 45 => ⟨S_, .i32⟩
  | 46 => ⟨S8388608, .i32⟩
  | 47 => ⟨S8388608, .i32⟩
  | 48 => ⟨S_, .i32⟩
  | 49 => ⟨S8388608, .i32⟩
  | 50 => ⟨S8388608, .i32⟩
  | 51 => ⟨S_, .i32⟩
  | 52 => ⟨S8388608, .i32⟩
  | 53 => ⟨S8388608, .i32⟩
  | 54 => ⟨S8388608, .i32⟩
  | 55 => ⟨S_, .i32⟩
  | 56 => ⟨S8388608, .i32⟩
  | 57 => ⟨S8388608, .i32⟩
  | 58 => ⟨S_, .i32⟩
  | 59 => ⟨S8388608, .i32⟩
  | 60 => ⟨S8388608, .i32⟩
  | 61 => ⟨S_, .i32⟩
  | 62 => ⟨S8388608, .i32⟩
  | 63 => ⟨S8388608, .i32⟩
  | 64 => ⟨S8388608, .i32⟩
  | 65 => ⟨S_, .i32⟩
  | 66 => ⟨S8388608, .i32⟩
  | 67 => ⟨S8388608, .i32⟩
  | 68 => ⟨S_, .i32⟩
  | 69 => ⟨S8388608, .i32⟩
  | 70 => ⟨S8388608, .i32⟩
  | 71 => ⟨S_, .i32⟩
  | 72 => ⟨S8388608, .i32⟩
  | 73 => ⟨S8388608, .i32⟩
  | 74 => ⟨S8388608, .i32⟩
  | 75 => ⟨S_, .i32⟩
  | 76 => ⟨S8388608, .i32⟩
  | 77 => ⟨S8388608, .i32⟩
  | 78 => ⟨S_, .i32⟩
  | 79 => ⟨S8388608, .i32⟩
  | 80 => ⟨S8388608, .i32⟩
  | 81 => ⟨S_, .i32⟩
  | 82 => ⟨S8388608, .i32⟩
  | 83 => ⟨S8388608, .i32⟩
  | 84 => ⟨S8388608, .i32⟩
  | 85 => ⟨S_, .i32⟩
  | 86 => ⟨S8388608, .i32⟩
  | 87 => ⟨S8388608, .i32⟩
  | 88 => ⟨S_, .i32⟩
  | 89 => ⟨S8388608, .i32⟩
  | 90 => ⟨S8388608, .i32⟩
  | 91 => ⟨S_, .i32⟩
  | 92 => ⟨S8388608, .i32⟩
  | 93 => ⟨S8388608, .i32⟩
  | 94 => ⟨S8388608, .i32⟩
  | 95 => ⟨S_, .i32⟩
  | 96 => ⟨S8388608, .i32⟩
  | 97 => ⟨S8388608, .i32⟩
  | 98 => ⟨S_, .i32⟩
  | 99 => ⟨S8388608, .i32⟩
  | 100 => ⟨S8388608, .i32⟩
  | 101 => ⟨S_, .i32⟩
  | 102 => ⟨S8388608, .i32⟩
  | 103 => ⟨S8388608, .i32⟩
  | 104 => ⟨S8388608, .i32⟩
  | 105 => ⟨S_, .i32⟩
  | 106 => ⟨S8388608, .i32⟩
  | 107 => ⟨S8388608, .i1⟩
  | 108 => ⟨S_, .i32⟩
  | 109 => ⟨S8388608, .i32⟩
  | 110 => ⟨S8388608, .i32⟩
  | 111 => ⟨S8388608, .i32⟩
  | 112 => ⟨S8388608x1, .i32⟩
  | 113 => ⟨S8388608, .f32⟩
  | 114 => ⟨S8388608, .f32⟩
  | 115 => ⟨S_, .i32⟩
  | 116 => ⟨S8388608, .i32⟩
  | 117 => ⟨S8388608, .i1⟩
  | 118 => ⟨S_, .i32⟩
  | 119 => ⟨S8388608, .i32⟩
  | 120 => ⟨S8388608, .i32⟩
  | 121 => ⟨S8388608, .i32⟩
  | 122 => ⟨S8388608x1, .i32⟩
  | 123 => ⟨S8388608, .f32⟩
  | 124 => ⟨S8388608, .f32⟩
  | _ => ⟨S8388608x2, .f32⟩

abbrev hbmTy (i : Nat) : BufTy := match i / 128 with
  | 0 => hbmTy0_0 i
  | 1 => hbmTy0_1 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_8 : Ref sig .tc := ⟨.hbm, 43, rfl⟩
abbrev main_c_9 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v24 : Ref sig .tc := ⟨.hbm, 50, rfl⟩
abbrev main_c_10 : Ref sig .tc := ⟨.hbm, 51, rfl⟩
abbrev main_v25 : Ref sig .tc := ⟨.hbm, 52, rfl⟩
abbrev main_c_11 : Ref sig .tc := ⟨.hbm, 53, rfl⟩
abbrev main_v26 : Ref sig .tc := ⟨.hbm, 54, rfl⟩
abbrev main_v27 : Ref sig .tc := ⟨.hbm, 55, rfl⟩
abbrev main_c_12 : Ref sig .tc := ⟨.hbm, 56, rfl⟩
abbrev main_v28 : Ref sig .tc := ⟨.hbm, 57, rfl⟩
abbrev main_v29 : Ref sig .tc := ⟨.hbm, 58, rfl⟩
abbrev main_c_13 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_14 : Ref sig .tc := ⟨.hbm, 63, rfl⟩
abbrev main_v33 : Ref sig .tc := ⟨.hbm, 64, rfl⟩
abbrev main_v34 : Ref sig .tc := ⟨.hbm, 65, rfl⟩
abbrev main_c_15 : Ref sig .tc := ⟨.hbm, 66, rfl⟩
abbrev main_v35 : Ref sig .tc := ⟨.hbm, 67, rfl⟩
abbrev main_v36 : Ref sig .tc := ⟨.hbm, 68, rfl⟩
abbrev main_c_16 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_17 : Ref sig .tc := ⟨.hbm, 73, rfl⟩
abbrev main_v40 : Ref sig .tc := ⟨.hbm, 74, rfl⟩
abbrev main_v41 : Ref sig .tc := ⟨.hbm, 75, rfl⟩
abbrev main_c_18 : Ref sig .tc := ⟨.hbm, 76, rfl⟩
abbrev main_v42 : Ref sig .tc := ⟨.hbm, 77, rfl⟩
abbrev main_v43 : Ref sig .tc := ⟨.hbm, 78, rfl⟩
abbrev main_c_19 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_20 : Ref sig .tc := ⟨.hbm, 83, rfl⟩
abbrev main_v47 : Ref sig .tc := ⟨.hbm, 84, rfl⟩
abbrev main_v48 : Ref sig .tc := ⟨.hbm, 85, rfl⟩
abbrev main_c_21 : Ref sig .tc := ⟨.hbm, 86, rfl⟩
abbrev main_v49 : Ref sig .tc := ⟨.hbm, 87, rfl⟩
abbrev main_v50 : Ref sig .tc := ⟨.hbm, 88, rfl⟩
abbrev main_c_22 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_23 : Ref sig .tc := ⟨.hbm, 93, rfl⟩
abbrev main_v54 : Ref sig .tc := ⟨.hbm, 94, rfl⟩
abbrev main_v55 : Ref sig .tc := ⟨.hbm, 95, rfl⟩
abbrev main_c_24 : Ref sig .tc := ⟨.hbm, 96, rfl⟩
abbrev main_v56 : Ref sig .tc := ⟨.hbm, 97, rfl⟩
abbrev main_v57 : Ref sig .tc := ⟨.hbm, 98, rfl⟩
abbrev main_c_25 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_26 : Ref sig .tc := ⟨.hbm, 103, rfl⟩
abbrev main_v61 : Ref sig .tc := ⟨.hbm, 104, rfl⟩
abbrev main_v62 : Ref sig .tc := ⟨.hbm, 105, rfl⟩
abbrev main_c_27 : Ref sig .tc := ⟨.hbm, 106, rfl⟩
abbrev main_v63 : Ref sig .tc := ⟨.hbm, 107, rfl⟩
abbrev main_v64 : Ref sig .tc := ⟨.hbm, 108, rfl⟩
abbrev main_c_28 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_29 : Ref sig .tc := ⟨.hbm, 113, rfl⟩
abbrev main_v68 : Ref sig .tc := ⟨.hbm, 114, rfl⟩
abbrev main_v69 : Ref sig .tc := ⟨.hbm, 115, rfl⟩
abbrev main_c_30 : Ref sig .tc := ⟨.hbm, 116, rfl⟩
abbrev main_v70 : Ref sig .tc := ⟨.hbm, 117, rfl⟩
abbrev main_v71 : Ref sig .tc := ⟨.hbm, 118, rfl⟩
abbrev main_c_31 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_32 : Ref sig .tc := ⟨.hbm, 123, rfl⟩
abbrev main_v75 : Ref sig .tc := ⟨.hbm, 124, rfl⟩
abbrev main_v76 : Ref sig .tc := ⟨.hbm, 125, rfl⟩
abbrev main_c_33 : Ref sig .tc := ⟨.hbm, 126, rfl⟩
abbrev main_v77 : Ref sig .tc := ⟨.hbm, 127, rfl⟩
abbrev main_v78 : Ref sig .tc := ⟨.hbm, 128, rfl⟩
abbrev main_c_34 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_35 : Ref sig .tc := ⟨.hbm, 133, rfl⟩
abbrev main_v82 : Ref sig .tc := ⟨.hbm, 134, rfl⟩
abbrev main_v83 : Ref sig .tc := ⟨.hbm, 135, rfl⟩
abbrev main_c_36 : Ref sig .tc := ⟨.hbm, 136, rfl⟩
abbrev main_v84 : Ref sig .tc := ⟨.hbm, 137, rfl⟩
abbrev main_v85 : Ref sig .tc := ⟨.hbm, 138, rfl⟩
abbrev main_c_37 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_c_38 : Ref sig .tc := ⟨.hbm, 143, rfl⟩
abbrev main_v89 : Ref sig .tc := ⟨.hbm, 144, rfl⟩
abbrev main_v90 : Ref sig .tc := ⟨.hbm, 145, rfl⟩
abbrev main_c_39 : Ref sig .tc := ⟨.hbm, 146, rfl⟩
abbrev main_v91 : Ref sig .tc := ⟨.hbm, 147, rfl⟩
abbrev main_v92 : Ref sig .tc := ⟨.hbm, 148, rfl⟩
abbrev main_c_40 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_41 : Ref sig .tc := ⟨.hbm, 153, rfl⟩
abbrev main_v96 : Ref sig .tc := ⟨.hbm, 154, rfl⟩
abbrev main_v97 : Ref sig .tc := ⟨.hbm, 155, rfl⟩
abbrev main_c_42 : Ref sig .tc := ⟨.hbm, 156, rfl⟩
abbrev main_v98 : Ref sig .tc := ⟨.hbm, 157, rfl⟩
abbrev main_v99 : Ref sig .tc := ⟨.hbm, 158, rfl⟩
abbrev main_c_43 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_44 : Ref sig .tc := ⟨.hbm, 163, rfl⟩
abbrev main_v103 : Ref sig .tc := ⟨.hbm, 164, rfl⟩
abbrev main_v104 : Ref sig .tc := ⟨.hbm, 165, rfl⟩
abbrev main_c_45 : Ref sig .tc := ⟨.hbm, 166, rfl⟩
abbrev main_v105 : Ref sig .tc := ⟨.hbm, 167, rfl⟩
abbrev main_v106 : Ref sig .tc := ⟨.hbm, 168, rfl⟩
abbrev main_c_46 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_c_47 : Ref sig .tc := ⟨.hbm, 173, rfl⟩
abbrev main_v110 : Ref sig .tc := ⟨.hbm, 174, rfl⟩
abbrev main_v111 : Ref sig .tc := ⟨.hbm, 175, rfl⟩
abbrev main_c_48 : Ref sig .tc := ⟨.hbm, 176, rfl⟩
abbrev main_v112 : Ref sig .tc := ⟨.hbm, 177, rfl⟩
abbrev main_v113 : Ref sig .tc := ⟨.hbm, 178, rfl⟩
abbrev main_c_49 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_c_50 : Ref sig .tc := ⟨.hbm, 183, rfl⟩
abbrev main_v117 : Ref sig .tc := ⟨.hbm, 184, rfl⟩
abbrev main_v118 : Ref sig .tc := ⟨.hbm, 185, rfl⟩
abbrev main_c_51 : Ref sig .tc := ⟨.hbm, 186, rfl⟩
abbrev main_v119 : Ref sig .tc := ⟨.hbm, 187, rfl⟩
abbrev main_v120 : Ref sig .tc := ⟨.hbm, 188, rfl⟩
abbrev main_c_52 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_c_53 : Ref sig .tc := ⟨.hbm, 193, rfl⟩
abbrev main_v124 : Ref sig .tc := ⟨.hbm, 194, rfl⟩
abbrev main_v125 : Ref sig .tc := ⟨.hbm, 195, rfl⟩
abbrev main_c_54 : Ref sig .tc := ⟨.hbm, 196, rfl⟩
abbrev main_v126 : Ref sig .tc := ⟨.hbm, 197, rfl⟩
abbrev main_v127 : Ref sig .tc := ⟨.hbm, 198, rfl⟩
abbrev main_c_55 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_c_56 : Ref sig .tc := ⟨.hbm, 203, rfl⟩
abbrev main_v131 : Ref sig .tc := ⟨.hbm, 204, rfl⟩
abbrev main_v132 : Ref sig .tc := ⟨.hbm, 205, rfl⟩
abbrev main_c_57 : Ref sig .tc := ⟨.hbm, 206, rfl⟩
abbrev main_v133 : Ref sig .tc := ⟨.hbm, 207, rfl⟩
abbrev main_v134 : Ref sig .tc := ⟨.hbm, 208, rfl⟩
abbrev main_c_58 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_59 : Ref sig .tc := ⟨.hbm, 213, rfl⟩
abbrev main_v138 : Ref sig .tc := ⟨.hbm, 214, rfl⟩
abbrev main_v139 : Ref sig .tc := ⟨.hbm, 215, rfl⟩
abbrev main_c_60 : Ref sig .tc := ⟨.hbm, 216, rfl⟩
abbrev main_v140 : Ref sig .tc := ⟨.hbm, 217, rfl⟩
abbrev main_v141 : Ref sig .tc := ⟨.hbm, 218, rfl⟩
abbrev main_c_61 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_c_62 : Ref sig .tc := ⟨.hbm, 223, rfl⟩
abbrev main_v145 : Ref sig .tc := ⟨.hbm, 224, rfl⟩
abbrev main_v146 : Ref sig .tc := ⟨.hbm, 225, rfl⟩
abbrev main_c_63 : Ref sig .tc := ⟨.hbm, 226, rfl⟩
abbrev main_v147 : Ref sig .tc := ⟨.hbm, 227, rfl⟩
abbrev main_v148 : Ref sig .tc := ⟨.hbm, 228, rfl⟩
abbrev main_c_64 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_c_65 : Ref sig .tc := ⟨.hbm, 233, rfl⟩
abbrev main_v152 : Ref sig .tc := ⟨.hbm, 234, rfl⟩
abbrev main_v153 : Ref sig .tc := ⟨.hbm, 235, rfl⟩
abbrev main_c_66 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_c_67 : Ref sig .tc := ⟨.hbm, 243, rfl⟩
abbrev main_v160 : Ref sig .tc := ⟨.hbm, 244, rfl⟩
abbrev main_v161 : Ref sig .tc := ⟨.hbm, 245, rfl⟩
abbrev main_c_68 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩

abbrev nD : Nat := 1
abbrev τ : Topo := Topo.v7x

variable {F : FTy → Type} [FloatOps F]

class Facts₀ : Prop where
  bcast_S_S8388608x2 : S_.BroadcastsInDim S8388608x2 (![] : Fin 0 → Fin S8388608x2.rank)
  slices_S8388608x2_S8388608x1_0_0 : S8388608x2.Slices ![0, 0] S8388608x1
  shapeCasts_S8388608x1_S8388608 : S8388608x1.ShapeCasts S8388608
  bcast_S_S8388608 : S_.BroadcastsInDim S8388608 (![] : Fin 0 → Fin S8388608.rank)
  slices_S8388608x2_S8388608x1_0_1 : S8388608x2.Slices ![0, 1] S8388608x1
  bcast_S8388608_S8388608x1_0 : S8388608.BroadcastsInDim S8388608x1 (![0] : Fin 1 → Fin S8388608x1.rank)
  gather_S262144_S8388608x1_S8388608_n_0_n_n_0_1_1_wf : GatherDims.WF S262144 S8388608x1 S8388608 [] [0] [] [0] [] 1 ![1]

variable [Facts₀]

def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf

class Facts : Prop extends Facts₀ where

variable [Facts]
-- ==== Proof.QuadCell.lean ====
/-
  The quadtree cell of a point, as one function of its two coordinates.

  A coordinate is first rounded to seven decimals (times 10^7, to the nearest integer with ties to even,
  divided by 10^7); its offset from the exterior's corner, divided by the exterior's extent and multiplied by 512,
  is truncated to a 32-bit integer and clamped into [0, 511]: the column (or row) of the 512 x 512 grid.
  The cell's index interleaves the nine bits of the column with the nine bits of the row (bit k of the column
  at position 2k, bit k of the row at position 2k+1): the Z-order index of the cell.

  Both programs compute this function lane by lane; they differ only in which arithmetic unit performs the shifts,
  and at 32 bits a shift is the same word on every unit, so the unit is a parameter here and drops out.
-/
import Idealize.ShloMosaic.PureOps.Ideal
import Idealize.ShloMosaic.Lib.ValueIdx
import Idealize.ShloMosaic.Lib.Pipeline.Value
import Idealize.ShloMosaic.Lib.KernelVsHost

noncomputable section

namespace Cert.QuadCell

open Idealize.ShloMosaic Idealize.ShloMosaic.ValueIdx

variable {F : FTy → Type} [FloatOps F]

/-! The quotient `dv` and the rounding to the nearest integer, ties to even, `rd` are parameters: a kernel and a host
program name them by different operations, which at the ideal values are the same functions (`hostCell_eq`). -/

/-- A coordinate rounded to seven decimals: `rd (v * 10^7) / 10^7`. -/
def snap (dv : F .f32 → F .f32 → F .f32) (rd : F .f32 → F .f32) (v : F .f32) : F .f32 :=
  dv (rd (FloatOps.mulf v (Scalar.ofBits .f32 0x4B189680#32))) (Scalar.ofBits .f32 0x4B189680#32)

/-- The grid line of a rounded coordinate: `(v - off) / width * 512`, truncated to an integer, clamped into [0, 511]. -/
def gridLine (dv : F .f32 → F .f32 → F .f32) (v off width : F .f32) : BitVec 32 :=
  IntOp.minsi 511#32 (IntOp.maxsi 0#32 (FloatOps.fptosi 32
    (FloatOps.mulf (dv (FloatOps.subf v off) width) (Scalar.ofBits .f32 0x44000000#32))))

/-- The grid column of a longitude: the exterior starts at -180 and is 360 wide. -/
def gridX (dv : F .f32 → F .f32 → F .f32) (rd : F .f32 → F .f32) (a : F .f32) : BitVec 32 :=
  gridLine dv (snap dv rd a) (Scalar.ofBits .f32 0xC3340000#32) (Scalar.ofBits .f32 0x43B40000#32)

/-- The grid row of a latitude: the exterior starts at -90 and is 180 high. -/
def gridY (dv : F .f32 → F .f32 → F .f32) (rd : F .f32 → F .f32) (b : F .f32) : BitVec 32 :=
  gridLine dv (snap dv rd b) (Scalar.ofBits .f32 0xC2B40000#32) (Scalar.ofBits .f32 0x43340000#32)

/-- Bit `k` of the word `g`, moved to position `s`. -/
def bitAt (u : ArithUnit) (g k s : BitVec 32) : BitVec 32 := IntOp.shli u (IntOp.andi (IntOp.shrsi u g k) 1#32) s

/-- One level of the interleave: bit `k` of the column at position `sx`, bit `k` of the row at position `sy`, or-ed in. -/
def level (u : ArithUnit) (acc gx gy k sx sy : BitVec 32) : BitVec 32 :=
  IntOp.ori (IntOp.ori acc (bitAt u gx k sx)) (bitAt u gy k sy)

/-- The Z-order index of the cell in column `gx`, row `gy`: nine levels from the zero word. -/
def morton (u : ArithUnit) (gx gy : BitVec 32) : BitVec 32 :=
  level u (level u (level u (level u (level u (level u (level u (level u (level u 0#32
    gx gy 0#32 0#32 1#32) gx gy 1#32 2#32 3#32) gx gy 2#32 4#32 5#32) gx gy 3#32 6#32 7#32) gx gy 4#32 8#32 9#32)
    gx gy 5#32 10#32 11#32) gx gy 6#32 12#32 13#32) gx gy 7#32 14#32 15#32) gx gy 8#32 16#32 17#32

/-- The cell of the point `(a, b)`. -/
def cell (dv : F .f32 → F .f32 → F .f32) (rd : F .f32 → F .f32) (u : ArithUnit) (a b : F .f32) : BitVec 32 :=
  morton u (gridX dv rd a) (gridY dv rd b)

/-- The cell as a kernel spells it: `arith.divf`, `math.roundeven`, the vector unit's shifts. -/
abbrev kernelCell (a b : F .f32) : BitVec 32 := cell FloatOps.divf FloatOps.roundeven .vector a b

/-- The cell as a host program spells it: `stablehlo.divide`, `stablehlo.round_nearest_even`, the host's shifts. -/
abbrev hostCell (a b : F .f32) : BitVec 32 := cell FloatOps.hostDivf (FloatOps.hostUnary .roundeven) .host a b

/-- The interleave is the same word whichever unit shifts. -/
theorem morton_unit (u u' : ArithUnit) (gx gy : BitVec 32) : morton u gx gy = morton u' gx gy := by
  simp only [morton, level, bitAt, shli_unit u u', shrsi_unit u u']

/-- At the ideal values the host's quotient is the kernel's. -/
theorem hostDivf_eq : (FloatOps.hostDivf : Ideal .f32 → Ideal .f32 → Ideal .f32) = FloatOps.divf :=
  funext fun x => funext fun y => (Ideal.hostDivf_def x y).trans (Ideal.divf_def x y).symm

/-- At the ideal values the host's rounding to even is the kernel's. -/
theorem hostRoundeven_eq : (FloatOps.hostUnary .roundeven : Ideal .f32 → Ideal .f32) = FloatOps.roundeven :=
  funext fun x => (Ideal.hostUnary_roundeven_def x).trans (Ideal.roundeven_def x).symm

/-- At the ideal values the two spellings of the cell are one function. -/
theorem hostCell_eq (a b : Ideal .f32) : hostCell a b = kernelCell a b := by
  unfold hostCell kernelCell
  rw [hostDivf_eq, hostRoundeven_eq]
  exact morton_unit .host .vector _ _

/-! ## A column of a two-column matrix, as a vector -/

/-- Column `o` of an `[n, 2]` matrix, cut out as an `[n, 1]` slice and cast to a length-`n` vector, holds at `r` the
    matrix's entry `(r, o)`. -/
theorem column_apply {n : Nat} {α : Type} (o : Nat) (ho : o < 2) (x : (⟨2, ![n, 2]⟩ : Shape).Idx → α)
    (h1 : (⟨2, ![n, 2]⟩ : Shape).Slices ![0, o] ⟨2, ![n, 1]⟩) (h2 : (⟨2, ![n, 1]⟩ : Shape).ShapeCasts ⟨1, ![n]⟩) (r : Fin n) :
    shapeCast (⟨1, ![n]⟩ : Shape) (extractStridedSlice (⟨2, ![n, 1]⟩ : Shape) ![0, o] x h1) h2 (ix1 r) = x (ix2 r ⟨o, ho⟩) := by
  refine (shapeCast_apply _ h2 (ix1 r) (ix2 r (0 : Fin 1)) ?_).trans
    (extractStridedSlice_apply _ x h1 (ix2 r (0 : Fin 1)) (ix2 r ⟨o, ho⟩) fun a => ?_)
  · rw [Shape.rowMajor_val_two, Shape.rowMajor_val_one]
    show r.val * 1 + 0 = r.val
    omega
  · match a with
    | ⟨0, _⟩ => show r.val = 0 + r.val; omega
    | ⟨1, _⟩ => show o = o + 0; omega

end Cert.QuadCell

end
-- ==== Proof.KernelCell.lean ====
/-
  One lane of the index kernel's body: from a block of points, entry `r` of what the body stores is the quadtree
  cell of the block's point `r` — the body's arithmetic, lane by lane, is the cell function's own chain of operations,
  the two coordinates taken as the block's two columns.
-/
import proofs.«133584_j3762391351408_1_alg».proof.Proof.Gen.KernelIdeal.Skeleton
import proofs.«133584_j3762391351408_1_alg».proof.Proof.QuadCell

set_option maxRecDepth 16384

noncomputable section

namespace Cert.KernelIdeal.Cell

open Idealize.ShloMosaic Idealize.ShloMosaic.ValueIdx Cert.KernelIdeal Cert.KernelIdeal.Gen Cert.QuadCell

variable {F : FTy → Type} [FloatOps F]

/-- The rounded block at an entry is the entry rounded. -/
theorem snap_apply (x0 : Vec F S65536x2 .f32) (j : S65536x2.Idx) :
    k0_pay2 x0 j = snap FloatOps.divf FloatOps.roundeven (x0 j) := rfl

/-- The body's grid columns: lane `r` is the grid column of the block's entry `(r, 0)`. -/
theorem gridX_apply (x0 : Vec F S65536x2 .f32) (r : Fin 65536) :
    k0_pay3 x0 (ix1 r) = gridX FloatOps.divf FloatOps.roundeven (x0 (ix2 r 0)) := by
  show gridLine FloatOps.divf (shapeCast S65536 (extractStridedSlice S65536x1 ![0, 0] (k0_pay2 x0) _) _ (ix1 r)) _ _ = _
  rw [column_apply 0 (by decide) (k0_pay2 x0) _ _ r]
  rfl

/-- The body's grid rows: lane `r` is the grid row of the block's entry `(r, 1)`. -/
theorem gridY_apply (x0 : Vec F S65536x2 .f32) (r : Fin 65536) :
    k0_pay4 x0 (ix1 r) = gridY FloatOps.divf FloatOps.roundeven (x0 (ix2 r 1)) := by
  show gridLine FloatOps.divf (shapeCast S65536 (extractStridedSlice S65536x1 ![0, 1] (k0_pay2 x0) _) _ (ix1 r)) _ _ = _
  rw [column_apply 1 (by decide) (k0_pay2 x0) _ _ r]
  rfl

/-- The body's nine levels of shifts, masks and ors, at a lane, are the interleave of the lane's column and row. -/
theorem morton_apply (x0 : Vec F S65536x2 .f32) (i : S65536.Idx) :
    k0_pay1 (k0_pay3 x0) (k0_pay4 x0) (k0_pay7 (k0_pay3 x0) (k0_pay4 x0) (k0_pay6 (k0_pay3 x0) (k0_pay4 x0) (k0_pay5 x0) 0#32) 3#32) 6#32 i
      = morton .vector (k0_pay3 x0 i) (k0_pay4 x0 i) := rfl

/-- What the body stores, at lane `r`: the cell of the block's point `r`. -/
theorem cell_apply (x0 : Vec F S65536x2 .f32) (r : Fin 65536) :
    k0_pay1 (k0_pay3 x0) (k0_pay4 x0) (k0_pay7 (k0_pay3 x0) (k0_pay4 x0) (k0_pay6 (k0_pay3 x0) (k0_pay4 x0) (k0_pay5 x0) 0#32) 3#32) 6#32 (ix1 r)
      = kernelCell (x0 (ix2 r 0)) (x0 (ix2 r 1)) := by
  rw [morton_apply, gridX_apply, gridY_apply]
  rfl

end Cert.KernelIdeal.Cell

end
-- ==== Proof.KernelArrays.lean ====
/-
  The arrays the two regions leave, as whole-array functions of what they find.

  The index region: its grid has 128 points, point `t` reading rows `65536 t … 65536 t + 65535` of the input and writing
  entries `65536 t … 65536 t + 65535` of the index array; lane `r` of what it writes is the cell of row `r` of its
  block, which is row `65536 t + r` of the input. The 128 blocks tile the index array, so it ends holding the cell of
  every point.

  The combining region: its grid has 64 points, point `t` reading entries `131072 t … 131072 t + 131071` of the two
  gathered tables and of `x`, and writing the same entries of the result: `wg * x + bg`, lane by lane. The 64 blocks
  tile the result.

  Between the two regions the host gathers each table at the index array (after jnp's wrap of negative indices);
  that stretch is carried here as one function of the table and the index array, `lookup`.
-/
import proofs.«133584_j3762391351408_1_alg».proof.Proof.Gen.KernelIdeal.Frame
import proofs.«133584_j3762391351408_1_alg».proof.Proof.KernelCell
import Idealize.ShloMosaic.Lib.Pipeline.Value
import Idealize.ShloMosaic.Lib.ValueIdx
import Idealize.ShloMosaic.Lib.StableHlo.Run

set_option maxRecDepth 16384

noncomputable section

namespace Cert.KernelIdeal.Arrays

open Cert.KernelIdeal Cert.KernelIdeal.Gen Cert.QuadCell
open Idealize.ShloMosaic Idealize.ShloMosaic.TcCoe Idealize.ShloMosaic.ValueIdx Idealize.SL.Sem
open Idealize.ShloMosaic.Pipeline (Dat Cfg Window)

variable {F : FTy → Type} [FloatOps F]

theorem offs1 : (![0] : Fin 1 → Nat) = fun _ => 0 := funext fun a => by fin_cases a; rfl
theorem offs2 : (![0, 0] : Fin 2 → Nat) = fun _ => 0 := funext fun a => by fin_cases a <;> rfl

/-! ## The whole-array functions -/

/-- The cell of every point: entry `n` is the cell of row `n` of the input. -/
abbrev cells (inp : S8388608x2.Idx → Elt F .f32) : S8388608.Idx → BitVec 32 :=
  fun i => kernelCell (inp (ix2 (i 0) 0)) (inp (ix2 (i 0) 1))

/-- The affine combination, entry by entry. -/
abbrev affine (wg x bg : S8388608.Idx → Elt F .f32) : S8388608.Idx → Elt F .f32 :=
  fun i => FloatOps.addf (FloatOps.mulf (wg i) (x i)) (bg i)

/-- The host's lookup of a table at an index array: an index below zero is moved up by the table's length, then the
    table is gathered. -/
def lookup (tbl : S262144.Idx → Elt F .f32) (idx : S8388608.Idx → BitVec 32) : S8388608.Idx → Elt F .f32 :=
  Host.gather gather_S262144_S8388608x1_S8388608_n_0_n_n_0_1_1 tbl
    (broadcastInDim S8388608x1 ![0] Facts₀.bcast_S8388608_S8388608x1_0
      (select (cmpi .slt idx (broadcastInDim S8388608 ![] Facts₀.bcast_S_S8388608 (constantI S_ 32 0#32)))
        (addi idx (broadcastInDim S8388608 ![] Facts₀.bcast_S_S8388608 (constantI S_ 32 262144#32))) idx))

section Regions
variable (V : (c : Dev nD) → (b : Ref sig .tc) → Buf (Elt F) ((c : Thread nD τ).loc b))

/-! ## The index region -/

/-- The index maps over the grid: the input's row block is the output's block, its column block the first. -/
theorem idx_facts0 : ∀ t : Fin cfg0.N, win0_0.index t (0 : Fin 2) = win0_1.index t (0 : Fin 1)
    ∧ win0_0.index t (1 : Fin 2) = 0 ∧ win0_1.index t (0 : Fin 1) ≤ 127 :=
  (by decide +kernel : ∀ t : Fin grid0.N, _)

/-- Every block of the index array is some point's. -/
theorem idx_onto0 : ∀ q : Fin 128, ∃ t : Fin cfg0.N, win0_1.index t = ![q.val] :=
  (by decide +kernel : ∀ q : Fin 128, ∃ t : Fin grid0.N, win0_1.index t = ![q.val])

/-- What point `t` writes back is block `t` of the cells of the input. -/
theorem cells_flushed (c : Dev nD) (t : Fin cfg0.N) :
    (dat0 V c).flushed 1 t = ((cfg0.win 1).blk t).view.read (Elt F) (cells (V c main_arg0)) := by
  show (cfg0.win 1).cut (grid0.coords t) ((dat0 V c).after 1 t) = _
  rw [after0_1]
  unfold out0_1
  rw [View.canon_unit_zero offs1]
  simp only [View.ld_unit_zero (S := S65536x2) offs2]
  obtain ⟨e0, e1, e2⟩ := idx_facts0 t
  funext j
  obtain ⟨r, rfl⟩ : ∃ r : Fin 65536, j = ix1 r := ⟨j 0, eq_ix1 j⟩
  refine (Cell.cell_apply (iblk0 V c 0 t) r).trans ?_
  show kernelCell (V c main_arg0 (((cfg0.win 0).blk t).view.emb (ix2 r 0))) (V c main_arg0 (((cfg0.win 0).blk t).view.emb (ix2 r 1)))
    = kernelCell (V c main_arg0 (ix2 ((((cfg0.win 1).blk t).view.emb (ix1 r)) 0) 0)) (V c main_arg0 (ix2 ((((cfg0.win 1).blk t).view.emb (ix1 r)) 0) 1))
  have h0 : ((cfg0.win 0).blk t).view.emb (ix2 r 0) = ix2 ((((cfg0.win 1).blk t).view.emb (ix1 r)) 0) 0 := by
    funext a; apply Fin.ext
    match a with
    | ⟨0, _⟩ => show win0_0.index t (0 : Fin 2) * 65536 + 1 * r.val = win0_1.index t (0 : Fin 1) * 65536 + 1 * r.val; omega
    | ⟨1, _⟩ => show win0_0.index t (1 : Fin 2) * 2 + 1 * 0 = 0; omega
  have h1 : ((cfg0.win 0).blk t).view.emb (ix2 r 1) = ix2 ((((cfg0.win 1).blk t).view.emb (ix1 r)) 0) 1 := by
    funext a; apply Fin.ext
    match a with
    | ⟨0, _⟩ => show win0_0.index t (0 : Fin 2) * 65536 + 1 * r.val = win0_1.index t (0 : Fin 1) * 65536 + 1 * r.val; omega
    | ⟨1, _⟩ => show win0_0.index t (1 : Fin 2) * 2 + 1 * 1 = 1; omega
  rw [h0, h1]
  rfl

/-- An index is in point `t`'s block iff it is in the block's range. -/
theorem cells_mem (t : Fin cfg0.N) (i : S8388608.Idx) :
    i ∈ ((cfg0.win 1).blk t).view.set ↔ ∀ a : Fin 1, win0_1.index t a * S65536.size a ≤ (i a).val ∧ (i a).val < win0_1.index t a * S65536.size a + S65536.size a := by
  show i ∈ ((View.whole main_v0).slice (win0_1.rect t)).set ↔ _
  rw [View.set_slice_whole, Rect.mem_set_unit]
  exact Iff.rfl

/-- The 128 blocks tile the index array. -/
theorem cells_cover (i : S8388608.Idx) : ∃ t : Fin cfg0.N, (cfg0.win 1).flush t = true ∧ i ∈ ((cfg0.win 1).blk t).view.set := by
  have hi : (i 0).val < 8388608 := (i 0).isLt
  obtain ⟨t, ht⟩ := idx_onto0 ⟨(i 0).val / 65536, by omega⟩
  have q0 : win0_1.index t (0 : Fin 1) = (i 0).val / 65536 := congrFun ht 0
  refine ⟨t, flush0_1 t, ?_⟩
  rw [cells_mem]
  intro a
  match a with
  | ⟨0, _⟩ => show win0_1.index t (0 : Fin 1) * 65536 ≤ (i 0).val ∧ (i 0).val < win0_1.index t (0 : Fin 1) * 65536 + 65536; omega

/-- The index array after the region: the cell of every point of the input as the region finds it. -/
theorem cells_final (c : Dev nD) : (dat0 V c).arrAt 1 cfg0.N = cells (V c main_arg0) :=
  (dat0 V c).arrAt_eq_of_cover 1 _ (fun t _ => cells_flushed V c t) cells_cover

/-! ## The combining region -/

/-- The body's payload: the two identity casts dropped. -/
theorem combine_pay (x0 x2 x1 : Vec F S131072 .f32) : k1_pay1 x0 x2 x1 = addf (mulf x0 x2) x1 := by
  show addf (mulf (shapeCast S131072 x0 _) x2) (shapeCast S131072 x1 _) = _
  rw [shapeCast_self, shapeCast_self]

/-- The index maps over the grid: every window moves with the output. -/
theorem idx_facts1 : ∀ t : Fin cfg1.N, win1_0.index t (0 : Fin 1) = win1_3.index t (0 : Fin 1)
    ∧ win1_1.index t (0 : Fin 1) = win1_3.index t (0 : Fin 1) ∧ win1_2.index t (0 : Fin 1) = win1_3.index t (0 : Fin 1)
    ∧ win1_3.index t (0 : Fin 1) ≤ 63 :=
  (by decide +kernel : ∀ t : Fin grid1.N, _)

/-- Every block of the result is some point's. -/
theorem idx_onto1 : ∀ q : Fin 64, ∃ t : Fin cfg1.N, win1_3.index t = ![q.val] :=
  (by decide +kernel : ∀ q : Fin 64, ∃ t : Fin grid1.N, win1_3.index t = ![q.val])

/-- What point `t` writes back is block `t` of the affine combination of the arrays as the region finds them. -/
theorem affine_flushed (c : Dev nD) (t : Fin cfg1.N) :
    (dat1 V c).flushed 3 t = ((cfg1.win 3).blk t).view.read (Elt F) (affine (V c main_v7) (V c main_arg1) (V c main_v14)) := by
  show (cfg1.win 3).cut (grid1.coords t) ((dat1 V c).after 3 t) = _
  rw [after1_3]
  unfold out1_3
  rw [View.canon_unit_zero offs1]
  simp only [View.ld_unit_zero (S := S131072) offs1]
  rw [combine_pay]
  obtain ⟨e0, e1, e2, e3⟩ := idx_facts1 t
  funext j
  show FloatOps.addf (FloatOps.mulf (V c main_v7 (((cfg1.win 0).blk t).view.emb j)) (V c main_arg1 (((cfg1.win 2).blk t).view.emb j))) (V c main_v14 (((cfg1.win 1).blk t).view.emb j))
    = FloatOps.addf (FloatOps.mulf (V c main_v7 (((cfg1.win 3).blk t).view.emb j)) (V c main_arg1 (((cfg1.win 3).blk t).view.emb j))) (V c main_v14 (((cfg1.win 3).blk t).view.emb j))
  have h0 : ((cfg1.win 0).blk t).view.emb j = ((cfg1.win 3).blk t).view.emb j := by
    funext a; apply Fin.ext
    match a with
    | ⟨0, _⟩ => show win1_0.index t (0 : Fin 1) * 131072 + 1 * (j 0).val = win1_3.index t (0 : Fin 1) * 131072 + 1 * (j 0).val; omega
  have h1 : ((cfg1.win 1).blk t).view.emb j = ((cfg1.win 3).blk t).view.emb j := by
    funext a; apply Fin.ext
    match a with
    | ⟨0, _⟩ => show win1_1.index t (0 : Fin 1) * 131072 + 1 * (j 0).val = win1_3.index t (0 : Fin 1) * 131072 + 1 * (j 0).val; omega
  have h2 : ((cfg1.win 2).blk t).view.emb j = ((cfg1.win 3).blk t).view.emb j := by
    funext a; apply Fin.ext
    match a with
    | ⟨0, _⟩ => show win1_2.index t (0 : Fin 1) * 131072 + 1 * (j 0).val = win1_3.index t (0 : Fin 1) * 131072 + 1 * (j 0).val; omega
  rw [h0, h1, h2]

/-- An index is in point `t`'s block iff it is in the block's range. -/
theorem affine_mem (t : Fin cfg1.N) (i : S8388608.Idx) :
    i ∈ ((cfg1.win 3).blk t).view.set ↔ ∀ a : Fin 1, win1_3.index t a * S131072.size a ≤ (i a).val ∧ (i a).val < win1_3.index t a * S131072.size a + S131072.size a := by
  show i ∈ ((View.whole main_v15).slice (win1_3.rect t)).set ↔ _
  rw [View.set_slice_whole, Rect.mem_set_unit]
  exact Iff.rfl

/-- The 64 blocks tile the result. -/
theorem affine_cover (i : S8388608.Idx) : ∃ t : Fin cfg1.N, (cfg1.win 3).flush t = true ∧ i ∈ ((cfg1.win 3).blk t).view.set := by
  have hi : (i 0).val < 8388608 := (i 0).isLt
  obtain ⟨t, ht⟩ := idx_onto1 ⟨(i 0).val / 131072, by omega⟩
  have q0 : win1_3.index t (0 : Fin 1) = (i 0).val / 131072 := congrFun ht 0
  refine ⟨t, flush1_3 t, ?_⟩
  rw [affine_mem]
  intro a
  match a with
  | ⟨0, _⟩ => show win1_3.index t (0 : Fin 1) * 131072 ≤ (i 0).val ∧ (i 0).val < win1_3.index t (0 : Fin 1) * 131072 + 131072; omega

/-- The result after the region: the affine combination of the arrays as the region finds them. -/
theorem affine_final (c : Dev nD) : (dat1 V c).arrAt 3 cfg1.N = affine (V c main_v7) (V c main_arg1) (V c main_v14) :=
  (dat1 V c).arrAt_eq_of_cover 3 _ (fun t _ => affine_flushed V c t) affine_cover

end Regions

/-! ## The run's boundaries -/

variable (m : (ℓ : Loc nD τ sig) → Buf (Elt F) ℓ) (ρ : Dev nD → PrngReg)

/-- After the index region the index array holds the cells of the launch input. -/
theorem W1_main_v0 (c : Dev nD) : W1 m ρ c (Proc.devRef .tc main_v0) = cells (m ((c : Thread nD τ).loc main_arg0)) :=
  (W1_arr m ρ c 1).trans (cells_final (V0 m ρ) c)

/-- The index region leaves the tables and `x` as launched. -/
theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  W1_of_ne m ρ c main_arg2 (by decide)
theorem W1_main_arg3 (c : Dev nD) : W1 m ρ c (Proc.devRef .tc main_arg3) = m ((c : Thread nD τ).loc main_arg3) :=
  W1_of_ne m ρ c main_arg3 (by decide)

/-- The host's stretch: the first gathered table is the lookup of `weight` at the index array. -/
theorem V2_main_v7 (c : Dev nD) : V2 m ρ c main_v7 = lookup (W1 m ρ c (Proc.devRef .tc main_arg2)) (W1 m ρ c (Proc.devRef .tc main_v0)) := by
  show StableHlo.after hostOps1 (W1 m ρ c) (Proc.devRef .tc main_v7) = _
  after_results
  rfl

/-- The host's stretch: the second gathered table is the lookup of `bias` at the index array. -/
theorem V2_main_v14 (c : Dev nD) : V2 m ρ c main_v14 = lookup (W1 m ρ c (Proc.devRef .tc main_arg3)) (W1 m ρ c (Proc.devRef .tc main_v0)) := by
  show StableHlo.after hostOps1 (W1 m ρ c) (Proc.devRef .tc main_v14) = _
  after_results
  rfl

/-- The host's stretch writes no argument. -/
theorem V2_main_arg1 (c : Dev nD) : V2 m ρ c main_arg1 = W1 m ρ c (Proc.devRef .tc main_arg1) := by
  show StableHlo.after hostOps1 (W1 m ρ c) (Proc.devRef .tc main_arg1) = _
  after_results

/-- THE RESULT at the end of the run, as one function of the launch arrays: the affine combination of `x` with the two
    tables looked up at the cells of the input. -/
theorem result (c : Dev nD) : W3 m ρ c (Proc.devRef .tc main_v15)
    = affine (lookup (m ((c : Thread nD τ).loc main_arg2)) (cells (m ((c : Thread nD τ).loc main_arg0))))
        (m ((c : Thread nD τ).loc main_arg1))
        (lookup (m ((c : Thread nD τ).loc main_arg3)) (cells (m ((c : Thread nD τ).loc main_arg0)))) := by
  refine ((W3_arr m ρ c 3).trans (affine_final (V2 m ρ) c)).trans ?_
  rw [V2_main_v7, V2_main_v14, V2_main_arg1, W1_main_v0, W1_main_arg1, W1_main_arg2, W1_main_arg3]

end Cert.KernelIdeal.Arrays

end
-- ==== Proof.RefCell.lean ====
/-
  One entry of the reference's index array: entry `n` of the array the reference gathers with is the quadtree cell
  of point `n` — the same chain of operations as the cell function's, read off the reference one operation at a
  time, the two coordinates taken as the two columns of the input.
-/
import proofs.«133584_j3762391351408_1_alg».proof.Proof.Gen.ReferenceIdeal.Read
import proofs.«133584_j3762391351408_1_alg».proof.Proof.QuadCell

set_option maxRecDepth 16384

noncomputable section

namespace Cert.ReferenceIdeal.Cell

open Idealize.ShloMosaic Idealize.ShloMosaic.ValueIdx Cert.ReferenceIdeal Cert.ReferenceIdeal.Read Cert.QuadCell

variable {F : FTy → Type} [FloatOps F]

/-- Entry `n` of the first column, as the slice and the reshape index it. -/
theorem col0 (n : Fin 8388608) : idx_main_v5 (idx_main_v6 (ix1 n)) = ix2 n 0 := by
  funext a
  match a with
  | ⟨0, _⟩ => exact Fin.ext (Nat.div_one _)
  | ⟨1, _⟩ => rfl

/-- Entry `n` of the second column, as the slice and the reshape index it. -/
theorem col1 (n : Fin 8388608) : idx_main_v11 (idx_main_v12 (ix1 n)) = ix2 n 1 := by
  funext a
  match a with
  | ⟨0, _⟩ => exact Fin.ext (Nat.div_one _)
  | ⟨1, _⟩ => rfl

/-- The rounded input at an entry is the entry rounded, in the host's spelling. -/
theorem snap_apply (x0 : S8388608x2.Idx → F .f32) (j : S8388608x2.Idx) :
    val_main_v4 (F := F) x0 j = snap FloatOps.hostDivf (FloatOps.hostUnary .roundeven) (x0 j) := rfl

/-- The reference's grid columns: entry `n` is the grid column of the input's entry `(n, 0)`. -/
theorem gridX_apply (x0 : S8388608x2.Idx → F .f32) (n : Fin 8388608) :
    val_main_v20 (F := F) x0 (ix1 n) = gridX FloatOps.hostDivf (FloatOps.hostUnary .roundeven) (x0 (ix2 n 0)) := by
  show gridLine FloatOps.hostDivf (val_main_v6 (F := F) x0 (ix1 n)) _ _ = _
  rw [val_main_v6_apply, val_main_v5_apply, col0, snap_apply]
  rfl

/-- The reference's grid rows: entry `n` is the grid row of the input's entry `(n, 1)`. -/
theorem gridY_apply (x0 : S8388608x2.Idx → F .f32) (n : Fin 8388608) :
    val_main_v24 (F := F) x0 (ix1 n) = gridY FloatOps.hostDivf (FloatOps.hostUnary .roundeven) (x0 (ix2 n 1)) := by
  show gridLine FloatOps.hostDivf (val_main_v12 (F := F) x0 (ix1 n)) _ _ = _
  rw [val_main_v12_apply, val_main_v11_apply, col1, snap_apply]
  rfl

/-- The reference's nine levels of shifts, masks and ors, at an entry, are the interleave of the entry's column and
    row, shifted by the host. -/
theorem morton_apply (x0 : S8388608x2.Idx → F .f32) (i : S8388608.Idx) :
    val_main_v151 (F := F) x0 i = morton .host (val_main_v20 (F := F) x0 i) (val_main_v24 (F := F) x0 i) := rfl

/-- The reference's index array at entry `n`: the cell of point `n`, in the host's spelling. -/
theorem cell_apply (x0 : S8388608x2.Idx → F .f32) (n : Fin 8388608) :
    val_main_v151 (F := F) x0 (ix1 n) = hostCell (x0 (ix2 n 0)) (x0 (ix2 n 1)) := by
  rw [morton_apply, gridX_apply, gridY_apply]
  rfl

end Cert.ReferenceIdeal.Cell

end
-- ==== Proof.Bridge.lean ====
/-
  The reference's result as the same function of the arguments as the kernel's.

  The reference computes the index array in one piece: its entry `n` is the cell of point `n`, as for the kernel. From there
  on it does what the kernel's program does between and inside its two regions: it wraps negative indices, gathers the two
  tables, multiplies by `x` and adds — the same operations on whole arrays, so the two results are one term once the index
  arrays are known equal.
-/
import proofs.«133584_j3762391351408_1_alg».proof.Proof.Gen.ReferenceIdeal.Read
import proofs.«133584_j3762391351408_1_alg».proof.Proof.RefCell
import proofs.«133584_j3762391351408_1_alg».proof.Proof.KernelArrays

set_option maxRecDepth 16384

noncomputable section

namespace Cert.Bridge

open Idealize.ShloMosaic Idealize.ShloMosaic.ValueIdx Cert.QuadCell
open Cert.ReferenceIdeal.Read Cert.KernelIdeal.Arrays

/-- The reference's index array is the cell of every point. -/
theorem ref_cells (inp : Cert.ReferenceIdeal.S8388608x2.Idx → Ideal .f32) :
    val_main_v151 (F := Ideal) inp = cells (F := Ideal) inp := by
  funext i
  obtain ⟨n, rfl⟩ : ∃ n : Fin 8388608, i = ix1 n := ⟨i 0, eq_ix1 i⟩
  exact (Cert.ReferenceIdeal.Cell.cell_apply (F := Ideal) inp n).trans (hostCell_eq _ _)

/-- The reference's result: the affine combination of `x` with the two tables looked up at the cells of the input. -/
theorem ref_result (inp : Cert.ReferenceIdeal.S8388608x2.Idx → Ideal .f32) (x : Cert.ReferenceIdeal.S8388608.Idx → Ideal .f32)
    (w b : Cert.ReferenceIdeal.S262144.Idx → Ideal .f32) :
    val_main_v167 (F := Ideal) inp x w b
      = affine (F := Ideal) (lookup (F := Ideal) w (cells (F := Ideal) inp)) x (lookup (F := Ideal) b (cells (F := Ideal) inp)) := by
  unfold val_main_v167 val_main_v159 val_main_v158 val_main_v166 val_main_v157 val_main_v165 val_main_v156 val_main_v164
    val_main_v153 val_main_v155 val_main_v161 val_main_v163
  rw [ref_cells]
  rfl

end Cert.Bridge

end
-- ==== Proof.lean ====
/-
  The certificate of the quadtree lookup: `out[n] = weight[cell(input[n])] * x[n] + bias[cell(input[n])]`.

  The kernel's program computes it in two pipelined regions with a host gather between them: the first region writes the
  cell of every point (Proof/KernelCell.lean: one lane of its body is the cell function of Proof/QuadCell.lean; Proof/KernelArrays.lean:
  its 128 blocks tile the index array), the host looks the two tables up at the cells, and the second region combines
  them with `x`, block by block (Proof/KernelArrays.lean). The reference computes the same cells in one piece
  (Proof/RefCell.lean) and then applies the same lookup and the same affine combination (Proof/Bridge.lean). At the
  ideal values the two cell computations are the same chain of operations — the host's rounding and quotient are the
  kernel's, and a 32-bit shift is the same word on the host and on the vector unit — so no law of real arithmetic and no
  finiteness of the inputs is needed: the results are equal as functions of any arguments.

  The frames of the two kernel programs are the generated ones; the reference's is its generated run with the result
  dropped. The idealization rewrote nothing, so `preserves` is trivial. The kernel's run with its result named is
  Proof/KernelRun.lean.
-/
import proofs.«133584_j3762391351408_1_alg».proof.Defs
import proofs.«133584_j3762391351408_1_alg».proof.Proof.Gen.Kernel
import proofs.«133584_j3762391351408_1_alg».proof.Proof.Gen.Kernel.Skeleton
import proofs.«133584_j3762391351408_1_alg».proof.Proof.Gen.Kernel.Launch
import proofs.«133584_j3762391351408_1_alg».proof.Proof.Gen.Kernel.Points
import proofs.«133584_j3762391351408_1_alg».proof.Proof.Gen.Kernel.Frame
import proofs.«133584_j3762391351408_1_alg».proof.Proof.Gen.KernelIdeal
import proofs.«133584_j3762391351408_1_alg».proof.Proof.Gen.KernelIdeal.Skeleton
import proofs.«133584_j3762391351408_1_alg».proof.Proof.Gen.KernelIdeal.Launch
import proofs.«133584_j3762391351408_1_alg».proof.Proof.Gen.KernelIdeal.Points
import proofs.«133584_j3762391351408_1_alg».proof.Proof.Gen.KernelIdeal.Frame
import proofs.«133584_j3762391351408_1_alg».proof.Proof.Gen.ReferenceIdeal
import proofs.«133584_j3762391351408_1_alg».proof.Proof.Gen.Pre_finite_inputs
import proofs.«133584_j3762391351408_1_alg».proof.Proof.Gen.ReferenceIdeal.Run
import proofs.«133584_j3762391351408_1_alg».proof.Proof.Gen.ReferenceIdeal.Read
import proofs.«133584_j3762391351408_1_alg».proof.Proof.KernelRun
import proofs.«133584_j3762391351408_1_alg».proof.Proof.KernelArrays
import proofs.«133584_j3762391351408_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the affine combination of `x` with the two tables looked up at the cells of the input. -/
theorem algebraic : Cert.algebraic_KernelIdeal_ReferenceIdeal := by
  intro m ρ m' ρ' _ hagree
  refine ⟨fun c => Cert.KernelIdeal.Arrays.affine (F := Ideal)
      (Cert.KernelIdeal.Arrays.lookup (m ((c.tc : Thread Cert.KernelIdeal.nD Cert.KernelIdeal.τ).loc Cert.KernelIdeal.main_arg2))
        (Cert.KernelIdeal.Arrays.cells (m ((c.tc : Thread Cert.KernelIdeal.nD Cert.KernelIdeal.τ).loc Cert.KernelIdeal.main_arg0))))
      (m ((c.tc : Thread Cert.KernelIdeal.nD Cert.KernelIdeal.τ).loc Cert.KernelIdeal.main_arg1))
      (Cert.KernelIdeal.Arrays.lookup (m ((c.tc : Thread Cert.KernelIdeal.nD Cert.KernelIdeal.τ).loc Cert.KernelIdeal.main_arg3))
        (Cert.KernelIdeal.Arrays.cells (m ((c.tc : Thread Cert.KernelIdeal.nD Cert.KernelIdeal.τ).loc Cert.KernelIdeal.main_arg0)))), ?_, ?_⟩
  · exact (θ_run Cert.KernelIdeal.defs _ _).mono
      (fun r h c => ⟨(h c).1.trans (Cert.KernelIdeal.Arrays.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v167_eq, Cert.Bridge.ref_result, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
